-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x1024x512 : Shape := ⟨3, ![8, 1024, 512]⟩
abbrev S8x1024 : Shape := ⟨2, ![8, 1024]⟩
abbrev S8x1024x1024 : Shape := ⟨3, ![8, 1024, 1024]⟩
abbrev S8x512x1024 : Shape := ⟨3, ![8, 512, 1024]⟩
abbrev S8x512 : Shape := ⟨2, ![8, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x1024x512 : S_.BroadcastsInDim S8x1024x512 (![] : Fin 0 → Fin S8x1024x512.rank)
  reducesTo_S8x1024x512_S_d0_1_2 : S8x1024x512.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x512x1024 : S_.BroadcastsInDim S8x512x1024 (![] : Fin 0 → Fin S8x512x1024.rank)
  reducesTo_S8x512x1024_S_d0_1_2 : S8x512x1024.ReducesTo [0, 1, 2] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg4 : FVec F S8x1024 .f32) (main_arg5 : FVec F S8x512x1024 .f32) (main_arg6 : FVec F S8x512 .f32) (main_v13 : IVec S_ 1) (main_v16 : IVec S8x1024x1024 1) : IVec S_ 1 :=
  let main_c_5 : IVec S_ 1 := constantI S_ 1 1#1
  let main_v17 : IVec S_ 1 := (fun x v => Host.reduce IntOp.andi x v reducesTo_S8x1024x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  let main_v24 : FVec F S8x512x1024 .f32 := Host.absf main_arg5
  let main_cst_8 : FVec F S_ .f32 := constant S_ .f32 0x7F800000#32
  let main_v25 : FVec F S8x512x1024 .f32 := broadcastInDim S8x512x1024 ![] bcast_S_S8x512x1024 main_cst_8
  let main_v26 : IVec S8x512x1024 1 := cmpf .olt main_v24 main_v25
  let main_c_9 : IVec S_ 1 := constantI S_ 1 1#1
  let main_v27 : IVec S_ 1 := (fun x v => Host.reduce IntOp.andi x v reducesTo_S8x512x1024_S_d0_1_2 h_S_) main_v26 main_c_9
  let main_v28 : IVec S_ 1 := andi main_v23 main_v27
  let main_v29 : FVec F S8x512 .f32 := Host.absf main_arg6
  let main_cst_10 : FVec F S_ .f32 := constant S_ .f32 0x7F800000#32
  let main_v30 : FVec F S8x512 .f32 := broadcastInDim S8x512 ![] bcast_S_S8x512 main_cst_10
  let main_v31 : IVec S8x512 1 := cmpf .olt main_v29 main_v30
  let main_c_11 : IVec S_ 1 := constantI S_ 1 1#1
  let main_v32 : IVec S_ 1 := (fun x v => Host.reduce IntOp.andi x v reducesTo_S8x512_S_d0_1 h_S_) main_v31 main_c_11
  let main_v33 : IVec S_ 1 := andi main_v28 main_v32
  main_v33

def fn {F : FTy → Type} [FloatOps F] (main_arg0 : FVec F S8x4096x512 .f32) (main_arg1 : FVec F S8x1024x512 .f32) (main_arg2 : FVec F S8x1024 .f32) (main_arg3 : FVec F S8x1024x1024 .f32) (main_arg4 : FVec F S8x1024 .f32) (main_arg5 : FVec F S8x512x1024 .f32) (main_arg6 : FVec F S8x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x1024x512 .f32 := Host.absf main_arg1
  let main_cst_0 : FVec F S_ .f32 := constant S_ .f32 0x7F800000#32
  let main_v5 : FVec F S8x1024x512 .f32 := broadcastInDim S8x1024x512 ![] bcast_S_S8x1024x512 main_cst_0
  let main_v6 : IVec S8x1024x512 1 := cmpf .olt main_v4 main_v5
  let main_c_1 : IVec S_ 1 := constantI S_ 1 1#1
  let main_v7 : IVec S_ 1 := (fun x v => Host.reduce IntOp.andi x v reducesTo_S8x1024x512_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1024x1024 .f32 := Host.absf main_arg3
  let main_cst_4 : FVec F S_ .f32 := constant S_ .f32 0x7F800000#32
  let main_v15 : FVec F S8x1024x1024 .f32 := broadcastInDim S8x1024x1024 ![] bcast_S_S8x1024x1024 main_cst_4
  let main_v16 : IVec S8x1024x1024 1 := cmpf .olt main_v14 main_v15
  fn_part1 (F := F) main_arg4 main_arg5 main_arg6 main_v13 main_v16
-- ==== Kernel.lean ====
abbrev S8x4096x512 : Shape := ⟨3, ![8, 4096, 512]⟩
abbrev S8x1024x512 : Shape := ⟨3, ![8, 1024, 512]⟩
abbrev S8x1024 : Shape := ⟨2, ![8, 1024]⟩
abbrev S8x1024x1024 : Shape := ⟨3, ![8, 1024, 1024]⟩
abbrev S8x512x1024 : Shape := ⟨3, ![8, 512, 1024]⟩
abbrev S8x512 : Shape := ⟨2, ![8, 512]⟩
abbrev S8x1x1024 : Shape := ⟨3, ![8, 1, 1024]⟩
abbrev S8x1x512 : Shape := ⟨3, ![8, 1, 512]⟩
abbrev S1x2048x512 : Shape := ⟨3, ![1, 2048, 512]⟩
abbrev S1x1024x512 : Shape := ⟨3, ![1, 1024, 512]⟩
abbrev S1x1x1024 : Shape := ⟨3, ![1, 1, 1024]⟩
abbrev S1x1024x1024 : Shape := ⟨3, ![1, 1024, 1024]⟩
abbrev S1x512x1024 : Shape := ⟨3, ![1, 512, 1024]⟩
abbrev S1x1x512 : Shape := ⟨3, ![1, 1, 512]⟩
abbrev S1024x512 : Shape := ⟨2, ![1024, 512]⟩
abbrev S1024x1024 : Shape := ⟨2, ![1024, 1024]⟩
abbrev S512x1024 : Shape := ⟨2, ![512, 1024]⟩
abbrev S1x1024 : Shape := ⟨2, ![1, 1024]⟩
abbrev S1x512 : Shape := ⟨2, ![1, 512]⟩

abbrev nBuf : Space → Nat
  | .hbm => 11
  | .vmem => 16
  | .smem => 0
  | _ => 0

abbrev bufTy : (tb : Table) → Fin (tcTables nBuf tb) → BufTy
  | .hbm, ⟨0, _⟩ => ⟨S8x4096x512, .f32⟩
  | .hbm, ⟨1, _⟩ => ⟨S8x1024x512, .f32⟩
  | .hbm, ⟨2, _⟩ => ⟨S8x1024, .f32⟩
  | .hbm, ⟨3, _⟩ => ⟨S8x1024x1024, .f32⟩
  | .hbm, ⟨4, _⟩ => ⟨S8x1024, .f32⟩
  | .hbm, ⟨5, _⟩ => ⟨S8x512x1024, .f32⟩
  | .hbm, ⟨6, _⟩ => ⟨S8x512, .f32⟩
  | .hbm, ⟨7, _⟩ => ⟨S8x1x1024, .f32⟩
  | .hbm, ⟨8, _⟩ => ⟨S8x1x1024, .f32⟩
  | .hbm, ⟨9, _⟩ => ⟨S8x1x512, .f32⟩
  | .hbm, ⟨10, _⟩ => ⟨S8x4096x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1x512, .f32⟩
  | .local _ .vmem, ⟨13, _⟩ => ⟨S1x1x512, .f32⟩
  | .local _ .vmem, ⟨14, _⟩ => ⟨S1x2048x512, .f32⟩
  | .local _ .vmem, ⟨15, _⟩ => ⟨S1x2048x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S8x1024_S8x1x1024_0_2 : S8x1024.BroadcastsInDim S8x1x1024 (![0, 2] : Fin 2 → Fin S8x1x1024.rank)
  bcast_S8x512_S8x1x512_0_2 : S8x512.BroadcastsInDim S8x1x512 (![0, 2] : Fin 2 → Fin S8x1x512.rank)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x512_S1x1024x512_0_0_0 : ∀ a, (![0, 0, 0] : Fin 3 → Nat) a + S1x1024x512.size a ≤ S1x2048x512.size a
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  shapeCasts_S1024x512_S1x1024x512 : S1024x512.ShapeCasts S1x1024x512
  inb_S1x2048x512_S1x1024x512_0_1024_0 : ∀ a, (![0, 1024, 0] : Fin 3 → Nat) a + S1x1024x512.size a ≤ S1x2048x512.size a
  dot_S1024x512_S1024x512_S1024x1024_1_1_0_0_n_n_wf : DotDims.WF S1024x512 S1024x512 S1024x1024 [1] [1] [0] [0] [] []
  dot_S1024x1024_S1024x1024_S1024x1024_1_1_0_0_n_n_wf : DotDims.WF S1024x1024 S1024x1024 S1024x1024 [1] [1] [0] [0] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x4096x512.size a
  hwx0_0 : ∀ i : grid0.Coords, EltTy.bits .f32 = 32 ∨ (Rect.block (s := S8x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x512.size a
  hwx0_1 : ∀ i : grid0.Coords, EltTy.bits .f32 = 32 ∨ (Rect.block (s := S8x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .f32 = 32 ∨ (Rect.block (s := S8x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x512x1024.size a
  hwx0_5 : ∀ i : grid0.Coords, EltTy.bits .f32 = 32 ∨ (Rect.block (s := S8x512x1024) S1x512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S8x1x512.size a
  hwx0_6 : ∀ i : grid0.Coords, EltTy.bits .f32 = 32 ∨ (Rect.block (s := S8x1x512) S1x1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x512.size a ≤ S8x4096x512.size a
  hwx0_7 : ∀ i : grid0.Coords, EltTy.bits .f32 = 32 ∨ (Rect.block (s := S8x4096x512) S1x2048x512.size (cc0_transform_7 i) (hinb0_7 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x1024x512 : Shape := ⟨3, ![8, 1024, 512]⟩
abbrev S8x1024 : Shape := ⟨2, ![8, 1024]⟩
abbrev S8x1024x1024 : Shape := ⟨3, ![8, 1024, 1024]⟩
abbrev S8x512x1024 : Shape := ⟨3, ![8, 512, 1024]⟩
abbrev S8x512 : Shape := ⟨2, ![8, 512]⟩
abbrev S8x4096x1024 : Shape := ⟨3, ![8, 4096, 1024]⟩
abbrev S8x1x1024 : Shape := ⟨3, ![8, 1, 1024]⟩
abbrev S_ : Shape := ⟨0, ![]⟩
abbrev S8x1x512 : Shape := ⟨3, ![8, 1, 512]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x1024x512, .f32⟩
  | .hbm, ⟨2, _⟩ => ⟨S8x1024, .f32⟩
  | .hbm, ⟨3, _⟩ => ⟨S8x1024x1024, .f32⟩
  | .hbm, ⟨4, _⟩ => ⟨S8x1024, .f32⟩
  | .hbm, ⟨5, _⟩ => ⟨S8x512x1024, .f32⟩
  | .hbm, ⟨6, _⟩ => ⟨S8x512, .f32⟩
  | .hbm, ⟨7, _⟩ => ⟨S8x4096x1024, .f32⟩
  | .hbm, ⟨8, _⟩ => ⟨S8x1x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x1x1024, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S8x4096x512, .f32⟩
  | .hbm, ⟨22, _⟩ => ⟨S8x1x512, .f32⟩
  | .hbm, ⟨23, _⟩ => ⟨S8x4096x512, .f32⟩
  | .hbm, ⟨24, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  bcast_S_S8x4096x1024 : S_.BroadcastsInDim S8x4096x1024 (![] : Fin 0 → Fin S8x4096x1024.rank)
  bcast_S8x512_S8x1x512_0_2 : S8x512.BroadcastsInDim S8x1x512 (![0, 2] : Fin 2 → Fin S8x1x512.rank)
  bcast_S8x1x512_S8x4096x512_0_1_2 : S8x1x512.BroadcastsInDim S8x4096x512 (![0, 1, 2] : Fin 3 → Fin S8x4096x512.rank)
  dot_S8x4096x512_S8x1024x512_S8x4096x1024_2_2_1_1_0_0_wf : DotDims.WF S8x4096x512 S8x1024x512 S8x4096x1024 [2] [2] [1] [1] [0] [0]
  dot_S8x4096x1024_S8x1024x1024_S8x4096x1024_2_2_1_1_0_0_wf : DotDims.WF S8x4096x1024 S8x1024x1024 S8x4096x1024 [2] [2] [1] [1] [0] [0]
  dot_S8x4096x1024_S8x512x1024_S8x4096x512_2_2_1_1_0_0_wf : DotDims.WF S8x4096x1024 S8x512x1024 S8x4096x512 [2] [2] [1] [1] [0] [0]

variable [Facts₀]

def dot_S8x4096x512_S8x1024x512_S8x4096x1024_2_2_1_1_0_0 : DotDims S8x4096x512 S8x1024x512 S8x4096x1024 where
  lhsContracting := [2]
  rhsContracting := [2]
  lhsNonContracting := [1]
  rhsNonContracting := [1]
  lhsBatch := [0]
  rhsBatch := [0]
  wf := dot_S8x4096x512_S8x1024x512_S8x4096x1024_2_2_1_1_0_0_wf
def dot_S8x4096x1024_S8x1024x1024_S8x4096x1024_2_2_1_1_0_0 : DotDims S8x4096x1024 S8x1024x1024 S8x4096x1024 where
  lhsContracting := [2]
  rhsContracting := [2]
  lhsNonContracting := [1]
  rhsNonContracting := [1]
  lhsBatch := [0]
  rhsBatch := [0]
  wf := dot_S8x4096x1024_S8x1024x1024_S8x4096x1024_2_2_1_1_0_0_wf
def dot_S8x4096x1024_S8x512x1024_S8x4096x512_2_2_1_1_0_0 : DotDims S8x4096x1024 S8x512x1024 S8x4096x512 where
  lhsContracting := [2]
  rhsContracting := [2]
  lhsNonContracting := [1]
  rhsNonContracting := [1]
  lhsBatch := [0]
  rhsBatch := [0]
  wf := dot_S8x4096x1024_S8x512x1024_S8x4096x512_2_2_1_1_0_0_wf

class Facts : Prop extends Facts₀ where

variable [Facts]
-- ==== Proof.MlpSpec.lean ====
/-
  The function both programs compute: a three-layer perceptron applied row by row, with its own weights
  for each batch entry.  For a row x (512 numbers), weights w0 (1024 × 512), w1 (1024 × 1024), w2 (512 × 1024)
  and bias rows c0, c1, c2:

      a_h = max (∑_d x_d · w0_{h,d} + c0_h) 0          (1024 numbers)
      e_g = max (∑_h a_h · w1_{g,h} + c1_g) 0          (1024 numbers)
      y_o = ∑_g e_g · w2_{o,g} + c2_o                    (512 numbers)

  Every weight matrix is applied transposed (the contraction runs over its SECOND axis).  All sums and
  products are those of the extended reals; no law beyond reading each operation at an index is needed,
  because both programs arrange the three contractions the same way.
-/
import Idealize.ShloMosaic.Lib.ValueIdx
import Idealize.ShloMosaic.PureOps.Ideal.Laws

noncomputable section

open scoped BigOperators

namespace Cert.MlpSpec

open Idealize.ShloMosaic Idealize.ShloMosaic.ValueIdx

/-- One affine layer at output position `n`: the row `x` against row `n` of the weight matrix, plus the bias. -/
def affine {K N : ℕ} (x : Fin K → EReal) (w : Fin N → Fin K → EReal) (c : Fin N → EReal) (n : Fin N) : EReal :=
  (∑ k : Fin K, x k * w n k) + c n

/-- The rectifier on the extended reals. -/
def relu (a : EReal) : EReal := max a 0

/-- The perceptron on one row: two rectified affine layers and a third affine layer. -/
def mlpRow (x : Fin 512 → EReal) (w0 : Fin 1024 → Fin 512 → EReal) (c0 : Fin 1024 → EReal)
    (w1 : Fin 1024 → Fin 1024 → EReal) (c1 : Fin 1024 → EReal)
    (w2 : Fin 512 → Fin 1024 → EReal) (c2 : Fin 512 → EReal) : Fin 512 → EReal :=
  affine (fun g => relu (affine (fun h => relu (affine x w0 c0 h)) w1 c1 g)) w2 c2

/-- The perceptron on a row depends on its seven arguments only through their values. -/
theorem mlpRow_congr {x x' : Fin 512 → EReal} {w0 w0' : Fin 1024 → Fin 512 → EReal} {c0 c0' : Fin 1024 → EReal}
    {w1 w1' : Fin 1024 → Fin 1024 → EReal} {c1 c1' : Fin 1024 → EReal}
    {w2 w2' : Fin 512 → Fin 1024 → EReal} {c2 c2' : Fin 512 → EReal}
    (hx : ∀ d, x d = x' d) (hw0 : ∀ h d, w0 h d = w0' h d) (hc0 : ∀ h, c0 h = c0' h)
    (hw1 : ∀ g h, w1 g h = w1' g h) (hc1 : ∀ g, c1 g = c1' g)
    (hw2 : ∀ o g, w2 o g = w2' o g) (hc2 : ∀ o, c2 o = c2' o) :
    mlpRow x w0 c0 w1 c1 w2 c2 = mlpRow x' w0' c0' w1' c1' w2' c2' := by
  obtain rfl : x = x' := funext hx
  obtain rfl : w0 = w0' := funext fun h => funext (hw0 h)
  obtain rfl : c0 = c0' := funext hc0
  obtain rfl : w1 = w1' := funext fun g => funext (hw1 g)
  obtain rfl : c1 = c1' := funext hc1
  obtain rfl : w2 = w2' := funext fun o => funext (hw2 o)
  obtain rfl : c2 = c2' := funext hc2
  rfl

/-- The result at batch entry `b`, row `s`, column `o`, from the seven argument arrays. -/
def mlpAt (Q : (⟨3, ![8, 4096, 512]⟩ : Shape).Idx → EReal) (W0 : (⟨3, ![8, 1024, 512]⟩ : Shape).Idx → EReal)
    (B0 : (⟨2, ![8, 1024]⟩ : Shape).Idx → EReal) (W1 : (⟨3, ![8, 1024, 1024]⟩ : Shape).Idx → EReal)
    (B1 : (⟨2, ![8, 1024]⟩ : Shape).Idx → EReal) (W2 : (⟨3, ![8, 512, 1024]⟩ : Shape).Idx → EReal)
    (B2 : (⟨2, ![8, 512]⟩ : Shape).Idx → EReal) (b : Fin 8) (s : Fin 4096) (o : Fin 512) : EReal :=
  mlpRow (fun d => Q (ix3 b s d)) (fun h d => W0 (ix3 b h d)) (fun h => B0 (ix2 b h))
    (fun g h => W1 (ix3 b g h)) (fun g => B1 (ix2 b g)) (fun o' g => W2 (ix3 b o' g)) (fun o' => B2 (ix2 b o')) o

/-- The whole result array as one function of the seven argument arrays. -/
def mlpArr (Q : (⟨3, ![8, 4096, 512]⟩ : Shape).Idx → EReal) (W0 : (⟨3, ![8, 1024, 512]⟩ : Shape).Idx → EReal)
    (B0 : (⟨2, ![8, 1024]⟩ : Shape).Idx → EReal) (W1 : (⟨3, ![8, 1024, 1024]⟩ : Shape).Idx → EReal)
    (B1 : (⟨2, ![8, 1024]⟩ : Shape).Idx → EReal) (W2 : (⟨3, ![8, 512, 1024]⟩ : Shape).Idx → EReal)
    (B2 : (⟨2, ![8, 512]⟩ : Shape).Idx → EReal) : (⟨3, ![8, 4096, 512]⟩ : Shape).Idx → EReal :=
  fun i => mlpAt Q W0 B0 W1 B1 W2 B2 (i 0) (i 1) (i 2)

theorem mlpArr_ix3 (Q : (⟨3, ![8, 4096, 512]⟩ : Shape).Idx → EReal) (W0 : (⟨3, ![8, 1024, 512]⟩ : Shape).Idx → EReal)
    (B0 : (⟨2, ![8, 1024]⟩ : Shape).Idx → EReal) (W1 : (⟨3, ![8, 1024, 1024]⟩ : Shape).Idx → EReal)
    (B1 : (⟨2, ![8, 1024]⟩ : Shape).Idx → EReal) (W2 : (⟨3, ![8, 512, 1024]⟩ : Shape).Idx → EReal)
    (B2 : (⟨2, ![8, 512]⟩ : Shape).Idx → EReal) (b : Fin 8) (s : Fin 4096) (o : Fin 512) :
    mlpArr Q W0 B0 W1 B1 W2 B2 (ix3 b s o) = mlpAt Q W0 B0 W1 B1 W2 B2 b s o := rfl

/-- The bf16 zero word is the extended real 0. -/
theorem zero_bf16 : Ideal.ofBits .bf16 0x0000#16 = 0 := by simp [Ideal.ofBits, Ideal.ieee]

end Cert.MlpSpec

end
-- ==== Proof.ChunkValue.lean ====
/-
  What the kernel body stores for one chunk of 1024 rows, read at an index.

  The body holds, as blocks with a leading unit axis, 1024 query rows X0 (1 × 1024 × 512), the batch entry's
  three weight matrices X1 (1 × 1024 × 512), X3 (1 × 1024 × 1024), X5 (1 × 512 × 1024) and its three bias rows
  X2, X4 (1 × 1 × 1024) and X6 (1 × 1 × 512).  It drops the unit axes, multiplies each activation matrix by the
  TRANSPOSED weight matrix on the matrix unit into a zero accumulator (both operands contract their second
  axis), adds the bias row broadcast down the rows, takes the maximum with zero after the first two products,
  and puts the unit axis back.  At the extended reals a change of float format is the identity and the
  matrix product into zero is the plain sum of products, so entry (0, r, o) of the stored chunk is the
  perceptron of MlpSpec on row r of X0.
-/
import proofs.«129712_g64166811402842_feedfinal_112_24_alg».proof.Proof.Gen.KernelIdeal.Skeleton
import proofs.«129712_g64166811402842_feedfinal_112_24_alg».proof.Proof.MlpSpec
import Idealize.ShloMosaic.Lib.Pipeline.Value
import Idealize.ShloMosaic.Lib.ValueIdx
import Idealize.ShloMosaic.PureOps.Ideal.Laws

noncomputable section

open scoped BigOperators

namespace Cert.KernelIdeal.ChunkValue

open Cert.KernelIdeal Cert.KernelIdeal.Gen Cert.MlpSpec
open Idealize.ShloMosaic Idealize.ShloMosaic.TcCoe Idealize.ShloMosaic.ValueIdx

/-! ## The unit axis of a block, dropped and put back -/

/-- A 1 × a × b block viewed a × b: entry (r, d) is entry (0, r, d). -/
theorem dropUnit {a b : ℕ} {α : Type} (X : (⟨3, ![1, a, b]⟩ : Shape).Idx → α)
    (h : (⟨3, ![1, a, b]⟩ : Shape).ShapeCasts ⟨2, ![a, b]⟩) (r : Fin a) (d : Fin b) :
    shapeCast ⟨2, ![a, b]⟩ X h (ix2 r d) = X (ix3 (0 : Fin 1) r d) :=
  (shapeCast_dropUnit_apply ![a, b] X h (ix2 r d)).trans
    (congrArg X (funext fun c => by match c with | ⟨0, _⟩ => rfl | ⟨1, _⟩ => rfl | ⟨2, _⟩ => rfl))

/-- An a × b value stored as a 1 × a × b block: entry (z, r, d) is entry (r, d). -/
theorem addUnit {a b : ℕ} {α : Type} (Y : (⟨2, ![a, b]⟩ : Shape).Idx → α)
    (h : (⟨2, ![a, b]⟩ : Shape).ShapeCasts ⟨3, ![1, a, b]⟩) (z : Fin 1) (r : Fin a) (d : Fin b) :
    shapeCast ⟨3, ![1, a, b]⟩ Y h (ix3 z r d) = Y (ix2 r d) :=
  (shapeCast_addUnit_apply ![a, b] Y h (ix3 z r d)).trans
    (congrArg Y (funext fun c => by match c with | ⟨0, _⟩ => rfl | ⟨1, _⟩ => rfl))

/-! ## A bias row broadcast down the rows -/

/-- A 1 × 1 × 1024 bias block, viewed 1 × 1024 and broadcast to 1024 × 1024: entry (r, n) is entry (0, 0, n). -/
theorem biasRow1024 (c : Vec Ideal S1x1x1024 .f32) (r : Fin 1024) (n : Fin 1024) :
    broadcastTo S1024x1024 (shapeCast S1x1024 c shapeCasts_S1x1x1024_S1x1024) broadcasts_S1x1024_S1024x1024 (ix2 r n)
      = c (ix3 (0 : Fin 1) (0 : Fin 1) n) :=
  (broadcastTo_apply (shapeCast S1x1024 c shapeCasts_S1x1x1024_S1x1024) broadcasts_S1x1024_S1024x1024 (ix2 r n)
    (ix2 (0 : Fin 1) n) (fun a => match a with
      | ⟨0, _⟩ => by show (0 : ℕ) = if (1 : Nat) = 1 then 0 else r.val; rw [if_pos rfl]
      | ⟨1, _⟩ => by show n.val = if (1024 : Nat) = 1 then 0 else n.val; rw [if_neg (by decide)])).trans
    (dropUnit c shapeCasts_S1x1x1024_S1x1024 (0 : Fin 1) n)

/-- A 1 × 1 × 512 bias block, viewed 1 × 512 and broadcast to 1024 × 512: entry (r, n) is entry (0, 0, n). -/
theorem biasRow512 (c : Vec Ideal S1x1x512 .f32) (r : Fin 1024) (n : Fin 512) :
    broadcastTo S1024x512 (shapeCast S1x512 c shapeCasts_S1x1x512_S1x512) broadcasts_S1x512_S1024x512 (ix2 r n)
      = c (ix3 (0 : Fin 1) (0 : Fin 1) n) :=
  (broadcastTo_apply (shapeCast S1x512 c shapeCasts_S1x1x512_S1x512) broadcasts_S1x512_S1024x512 (ix2 r n)
    (ix2 (0 : Fin 1) n) (fun a => match a with
      | ⟨0, _⟩ => by show (0 : ℕ) = if (1 : Nat) = 1 then 0 else r.val; rw [if_pos rfl]
      | ⟨1, _⟩ => by show n.val = if (512 : Nat) = 1 then 0 else n.val; rw [if_neg (by decide)])).trans
    (dropUnit c shapeCasts_S1x1x512_S1x512 (0 : Fin 1) n)

/-! ## The three matrix products: each operand read along its second axis -/

theorem lhsA_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhsA_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhsA_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhsA_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The first product, 1024 × 512 rows against 1024 × 512 weights: entry (r, n) sums over the 512 columns of both. -/
theorem matmulA (x : FVec Ideal S1024x512 .bf16) (w : FVec Ideal S1024x512 .bf16) (r : Fin 1024) (n : Fin 1024) :
    matmul dot_S1024x512_S1024x512_S1024x1024_1_1_0_0_n_n none x w (constant S1024x1024 .f32 0x00000000#32) (ix2 r n)
      = ∑ k : Fin 512, x (ix2 r k) * w (ix2 n k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r n) ((ValueIdx.contrEquiv1 dot_S1024x512_S1024x512_S1024x1024_1_1_0_0_n_n 512 rfl rfl).symm k) = ix2 r k := funext fun a => Fin.ext (by
    match a with
    | ⟨0, _⟩ => exact lhsA_0 _ _
    | ⟨1, _⟩ => exact (lhsA_1 _ _).trans hk)
  have er : dot_S1024x512_S1024x512_S1024x1024_1_1_0_0_n_n.rhsIdx (ix2 r n) ((ValueIdx.contrEquiv1 dot_S1024x512_S1024x512_S1024x1024_1_1_0_0_n_n 512 rfl rfl).symm k) = ix2 n k := funext fun a => Fin.ext (by
    match a with
    | ⟨0, _⟩ => exact rhsA_0 _ _
    | ⟨1, _⟩ => exact (rhsA_1 _ _).trans hk)
  rw [el, er]

theorem lhsB_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhsB_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhsB_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhsB_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The second product, 1024 × 1024 activations against 1024 × 1024 weights: entry (r, n) sums over the 1024 columns of both. -/
theorem matmulB (x : FVec Ideal S1024x1024 .bf16) (w : FVec Ideal S1024x1024 .bf16) (r : Fin 1024) (n : Fin 1024) :
    matmul dot_S1024x1024_S1024x1024_S1024x1024_1_1_0_0_n_n none x w (constant S1024x1024 .f32 0x00000000#32) (ix2 r n)
      = ∑ k : Fin 1024, x (ix2 r k) * w (ix2 n k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r n) ((ValueIdx.contrEquiv1 dot_S1024x1024_S1024x1024_S1024x1024_1_1_0_0_n_n 1024 rfl rfl).symm k) = ix2 r k := funext fun a => Fin.ext (by
    match a with
    | ⟨0, _⟩ => exact lhsB_0 _ _
    | ⟨1, _⟩ => exact (lhsB_1 _ _).trans hk)
  have er : dot_S1024x1024_S1024x1024_S1024x1024_1_1_0_0_n_n.rhsIdx (ix2 r n) ((ValueIdx.contrEquiv1 dot_S1024x1024_S1024x1024_S1024x1024_1_1_0_0_n_n 1024 rfl rfl).symm k) = ix2 n k := funext fun a => Fin.ext (by
    match a with
    | ⟨0, _⟩ => exact rhsB_0 _ _
    | ⟨1, _⟩ => exact (rhsB_1 _ _).trans hk)
  rw [el, er]

theorem lhsC_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhsC_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhsC_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhsC_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The third product, 1024 × 1024 activations against 512 × 1024 weights: entry (r, n) sums over the 1024 columns of both. -/
theorem matmulC (x : FVec Ideal S1024x1024 .bf16) (w : FVec Ideal S512x1024 .bf16) (r : Fin 1024) (n : Fin 512) :
    matmul dot_S1024x1024_S512x1024_S1024x512_1_1_0_0_n_n none x w (constant S1024x512 .f32 0x00000000#32) (ix2 r n)
      = ∑ k : Fin 1024, x (ix2 r k) * w (ix2 n k) := by
  simp only [matmul]
  rw [Ideal.matmul_constant_zero_apply, ← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 r n) ((ValueIdx.contrEquiv1 dot_S1024x1024_S512x1024_S1024x512_1_1_0_0_n_n 1024 rfl rfl).symm k) = ix2 r k := funext fun a => Fin.ext (by
    match a with
    | ⟨0, _⟩ => exact lhsC_0 _ _
    | ⟨1, _⟩ => exact (lhsC_1 _ _).trans hk)
  have er : dot_S1024x1024_S512x1024_S1024x512_1_1_0_0_n_n.rhsIdx (ix2 r n) ((ValueIdx.contrEquiv1 dot_S1024x1024_S512x1024_S1024x512_1_1_0_0_n_n 1024 rfl rfl).symm k) = ix2 n k := funext fun a => Fin.ext (by
    match a with
    | ⟨0, _⟩ => exact rhsC_0 _ _
    | ⟨1, _⟩ => exact (rhsC_1 _ _).trans hk)
  rw [el, er]

/-! ## The layers on vectors -/

/-- The first rectified layer: product, bias row, format change (the identity), maximum with the zero splat. -/
theorem reluLayerA (x : FVec Ideal S1024x512 .bf16) (w : FVec Ideal S1024x512 .bf16) (c : Vec Ideal S1x1x1024 .f32)
    (r : Fin 1024) (n : Fin 1024) :
    maximumf (truncf .bf16 (addf (matmul dot_S1024x512_S1024x512_S1024x1024_1_1_0_0_n_n none x w (constant S1024x1024 .f32 0x00000000#32))
        (broadcastTo S1024x1024 (shapeCast S1x1024 c shapeCasts_S1x1x1024_S1x1024) broadcasts_S1x1024_S1024x1024)) bitsLt_bf16_f32)
      (broadcast S1024x1024 (Scalar.ofBits .bf16 0x0000#16)) (ix2 r n)
      = relu (affine (fun k => x (ix2 r k)) (fun n' k => w (ix2 n' k)) (fun n' => c (ix3 (0 : Fin 1) (0 : Fin 1) n')) n) := by
  show max (matmul dot_S1024x512_S1024x512_S1024x1024_1_1_0_0_n_n none x w (constant S1024x1024 .f32 0x00000000#32) (ix2 r n)
      + broadcastTo S1024x1024 (shapeCast S1x1024 c shapeCasts_S1x1x1024_S1x1024) broadcasts_S1x1024_S1024x1024 (ix2 r n))
    (Ideal.ofBits .bf16 0x0000#16) = _
  rw [matmulA, biasRow1024, zero_bf16]
  rfl

/-- The second rectified layer. -/
theorem reluLayerB (x : FVec Ideal S1024x1024 .bf16) (w : FVec Ideal S1024x1024 .bf16) (c : Vec Ideal S1x1x1024 .f32)
    (r : Fin 1024) (n : Fin 1024) :
    maximumf (truncf .bf16 (addf (matmul dot_S1024x1024_S1024x1024_S1024x1024_1_1_0_0_n_n none x w (constant S1024x1024 .f32 0x00000000#32))
        (broadcastTo S1024x1024 (shapeCast S1x1024 c shapeCasts_S1x1x1024_S1x1024) broadcasts_S1x1024_S1024x1024)) bitsLt_bf16_f32)
      (broadcast S1024x1024 (Scalar.ofBits .bf16 0x0000#16)) (ix2 r n)
      = relu (affine (fun k => x (ix2 r k)) (fun n' k => w (ix2 n' k)) (fun n' => c (ix3 (0 : Fin 1) (0 : Fin 1) n')) n) := by
  show max (matmul dot_S1024x1024_S1024x1024_S1024x1024_1_1_0_0_n_n none x w (constant S1024x1024 .f32 0x00000000#32) (ix2 r n)
      + broadcastTo S1024x1024 (shapeCast S1x1024 c shapeCasts_S1x1x1024_S1x1024) broadcasts_S1x1024_S1024x1024 (ix2 r n))
    (Ideal.ofBits .bf16 0x0000#16) = _
  rw [matmulB, biasRow1024, zero_bf16]
  rfl

/-- The output layer: product and bias row, no rectifier. -/
theorem outLayer (x : FVec Ideal S1024x1024 .bf16) (w : FVec Ideal S512x1024 .bf16) (c : Vec Ideal S1x1x512 .f32)
    (r : Fin 1024) (n : Fin 512) :
    addf (matmul dot_S1024x1024_S512x1024_S1024x512_1_1_0_0_n_n none x w (constant S1024x512 .f32 0x00000000#32))
        (broadcastTo S1024x512 (shapeCast S1x512 c shapeCasts_S1x1x512_S1x512) broadcasts_S1x512_S1024x512) (ix2 r n)
      = affine (fun k => x (ix2 r k)) (fun n' k => w (ix2 n' k)) (fun n' => c (ix3 (0 : Fin 1) (0 : Fin 1) n')) n := by
  show matmul dot_S1024x1024_S512x1024_S1024x512_1_1_0_0_n_n none x w (constant S1024x512 .f32 0x00000000#32) (ix2 r n)
      + broadcastTo S1024x512 (shapeCast S1x512 c shapeCasts_S1x1x512_S1x512) broadcasts_S1x512_S1024x512 (ix2 r n) = _
  rw [matmulC, biasRow512]
  rfl

/-- A weight block with its unit axis dropped and its format changed, at (n, k): the block at (0, n, k). -/
theorem weightAt {a b : ℕ} (X : Vec Ideal ⟨3, ![1, a, b]⟩ .f32) (h : (⟨3, ![1, a, b]⟩ : Shape).ShapeCasts ⟨2, ![a, b]⟩)
    (n : Fin a) (k : Fin b) :
    (truncf .bf16 (shapeCast ⟨2, ![a, b]⟩ X h) bitsLt_bf16_f32 : FVec Ideal ⟨2, ![a, b]⟩ .bf16) (ix2 n k) = X (ix3 (0 : Fin 1) n k) :=
  dropUnit X h n k

/-! ## One stored chunk -/

/-- Entry (z, r, o) of the chunk the body stores is the perceptron on row r of the loaded query rows. -/
theorem chunk_apply (X0 : Vec Ideal S1x1024x512 .f32) (X1 : Vec Ideal S1x1024x512 .f32) (X2 : Vec Ideal S1x1x1024 .f32)
    (X3 : Vec Ideal S1x1024x1024 .f32) (X4 : Vec Ideal S1x1x1024 .f32) (X5 : Vec Ideal S1x512x1024 .f32)
    (X6 : Vec Ideal S1x1x512 .f32) (z : Fin 1) (r : Fin 1024) (o : Fin 512) :
    k0_pay2 (k0_pay3 X1) (k0_pay4 X3) (k0_pay5 X5) X0 X2 X4 X6 (ix3 z r o)
      = mlpRow (fun d => X0 (ix3 (0 : Fin 1) r d)) (fun h d => X1 (ix3 (0 : Fin 1) h d)) (fun h => X2 (ix3 (0 : Fin 1) (0 : Fin 1) h))
          (fun g h => X3 (ix3 (0 : Fin 1) g h)) (fun g => X4 (ix3 (0 : Fin 1) (0 : Fin 1) g))
          (fun o' g => X5 (ix3 (0 : Fin 1) o' g)) (fun o' => X6 (ix3 (0 : Fin 1) (0 : Fin 1) o')) o := by
  unfold k0_pay2 k0_pay3 k0_pay4 k0_pay5
  dsimp only
  rw [addUnit, outLayer]
  simp only [reluLayerB, reluLayerA, weightAt]
  rfl

/-- The first chunk's stored value is the same term as the second's, of the rows loaded for it. -/
theorem chunk0_eq {F : FTy → Type} [FloatOps F] (v0 : Vec F S1x1024x512 .f32) (v3 : Vec F S1x1024x1024 .f32) (v6 : Vec F S1x512x1024 .f32)
    (v9 : Vec F S1x1024x512 .f32) (v13 : Vec F S1x1x1024 .f32) (v21 : Vec F S1x1x1024 .f32) (v29 : Vec F S1x1x512 .f32) :
    k0_pay1 (k0_pay6 v0 v3 v6 v9 v13 v21) (k0_pay7 v29) = k0_pay2 (k0_pay3 v0) (k0_pay4 v3) (k0_pay5 v6) v9 v13 v21 v29 := rfl

end Cert.KernelIdeal.ChunkValue

end
-- ==== Proof.BlockValue.lean ====
/-
  The kernel's result array.  The grid has 8 × 2 points; point (b, s) is handed rows 2048 s … 2048 s + 2047 of
  batch entry b of the query (a 1 × 2048 × 512 block), batch entry b's three weight matrices and three bias
  rows (the biases through a host broadcast that only inserts a unit axis), and writes back the same rows of
  the result.  The body stores the block in two chunks of 1024 rows, each the perceptron of MlpSpec on its
  rows (ChunkValue), so the block is ONE function of the input blocks, row by row; read through the
  blocks' places in the arrays it is the block of the whole-array perceptron of the seven arguments; and the
  16 blocks tile the result array.
-/
import proofs.«129712_g64166811402842_feedfinal_112_24_alg».proof.Proof.Gen.KernelIdeal.Value
import proofs.«129712_g64166811402842_feedfinal_112_24_alg».proof.Proof.ChunkValue
import Idealize.ShloMosaic.Lib.StableHlo.Run

noncomputable section

open scoped BigOperators

namespace Cert.KernelIdeal.BlockValue

open Cert.KernelIdeal Cert.KernelIdeal.Gen Cert.KernelIdeal.ChunkValue Cert.MlpSpec
open Idealize.ShloMosaic Idealize.ShloMosaic.TcCoe Idealize.ShloMosaic.ValueIdx Idealize.SL.Sem
open Idealize.ShloMosaic.Pipeline (Dat)

/-! ## The body's block as one function of the input blocks -/

theorem zero3 : (![0, 0, 0] : Fin 3 → Nat) = fun _ => 0 := funext fun a => by fin_cases a <;> rfl

/-- Row r, column o of the result block: the perceptron on row r of the query block. -/
def rowOut (x0 : Vec Ideal S1x2048x512 .f32) (x1 : Vec Ideal S1x1024x512 .f32) (x2 : Vec Ideal S1x1x1024 .f32)
    (x3 : Vec Ideal S1x1024x1024 .f32) (x4 : Vec Ideal S1x1x1024 .f32) (x5 : Vec Ideal S1x512x1024 .f32)
    (x6 : Vec Ideal S1x1x512 .f32) (r : Fin 2048) (o : Fin 512) : EReal :=
  mlpRow (fun d => x0 (ix3 (0 : Fin 1) r d)) (fun h d => x1 (ix3 (0 : Fin 1) h d)) (fun h => x2 (ix3 (0 : Fin 1) (0 : Fin 1) h))
    (fun g h => x3 (ix3 (0 : Fin 1) g h)) (fun g => x4 (ix3 (0 : Fin 1) (0 : Fin 1) g))
    (fun o' g => x5 (ix3 (0 : Fin 1) o' g)) (fun o' => x6 (ix3 (0 : Fin 1) (0 : Fin 1) o')) o

/-- The result block as a function of its index. -/
def blockFn (x0 : Vec Ideal S1x2048x512 .f32) (x1 : Vec Ideal S1x1024x512 .f32) (x2 : Vec Ideal S1x1x1024 .f32)
    (x3 : Vec Ideal S1x1024x1024 .f32) (x4 : Vec Ideal S1x1x1024 .f32) (x5 : Vec Ideal S1x512x1024 .f32)
    (x6 : Vec Ideal S1x1x512 .f32) : S1x2048x512.Idx → EReal :=
  fun y => rowOut x0 x1 x2 x3 x4 x5 x6 (y 1) (y 2)

/-- The second chunk's rectangle places its row r at row 1024 + r of the block. -/
theorem rows_hi (z : Fin 1) (r : Fin 1024) (d : Fin 512) :
    r0_6.emb (ix3 z r d) = ix3 (0 : Fin 1) (⟨1024 + r.val, by have := r.isLt; omega⟩ : Fin 2048) d := by
  funext a; apply Fin.ext
  have hz := z.isLt
  match a with
  | ⟨0, _⟩ => show 0 + 1 * z.val = 0; omega
  | ⟨1, _⟩ => show 1024 + 1 * r.val = 1024 + r.val; omega
  | ⟨2, _⟩ => show 0 + 1 * d.val = d.val; omega

/-- The first chunk's rectangle places its row r at row r of the block. -/
theorem rows_lo (z : Fin 1) (r : Fin 1024) (d : Fin 512) :
    r0_3.emb (ix3 z r d) = ix3 (0 : Fin 1) (⟨r.val, by have := r.isLt; omega⟩ : Fin 2048) d := by
  funext a; apply Fin.ext
  have hz := z.isLt
  match a with
  | ⟨0, _⟩ => show 0 + 1 * z.val = 0; omega
  | ⟨1, _⟩ => show 0 + 1 * r.val = r.val; omega
  | ⟨2, _⟩ => show 0 + 1 * d.val = d.val; omega

/-- The second chunk, stored through its rectangle, is the block function there. -/
theorem piece_hi (x0 : Vec Ideal S1x2048x512 .f32) (x1 : Vec Ideal S1x1024x512 .f32) (x2 : Vec Ideal S1x1x1024 .f32)
    (x3 : Vec Ideal S1x1024x1024 .f32) (x4 : Vec Ideal S1x1x1024 .f32) (x5 : Vec Ideal S1x512x1024 .f32)
    (x6 : Vec Ideal S1x1x512 .f32) (x : (⟨3, ![1, 1024, 512]⟩ : Shape).Idx) :
    k0_pay2 (k0_pay3 (View.ld x1 r0_0)) (k0_pay4 (View.ld x3 r0_1)) (k0_pay5 (View.ld x5 r0_2)) (View.ld x0 r0_6)
        (View.ld x2 r0_4) (View.ld x4 r0_4) (View.ld x6 r0_5) x
      = blockFn x0 x1 x2 x3 x4 x5 x6 (r0_6.emb x) := by
  obtain ⟨z, r, o, rfl⟩ : ∃ (z : Fin 1) (r : Fin 1024) (o : Fin 512), x = ix3 z r o := ⟨x 0, x 1, x 2, eq_ix3 x⟩
  rw [rows_hi]
  refine (chunk_apply _ _ _ _ _ _ _ z r o).trans ?_
  exact congrFun (mlpRow_congr
    (fun d => congrArg x0 (rows_hi (0 : Fin 1) r d))
    (fun h d => congrFun (View.ld_unit_zero (S := S1x1024x512) zero3 _ x1) (ix3 (0 : Fin 1) h d))
    (fun h => congrFun (View.ld_unit_zero (S := S1x1x1024) zero3 _ x2) (ix3 (0 : Fin 1) (0 : Fin 1) h))
    (fun g h => congrFun (View.ld_unit_zero (S := S1x1024x1024) zero3 _ x3) (ix3 (0 : Fin 1) g h))
    (fun g => congrFun (View.ld_unit_zero (S := S1x1x1024) zero3 _ x4) (ix3 (0 : Fin 1) (0 : Fin 1) g))
    (fun o' g => congrFun (View.ld_unit_zero (S := S1x512x1024) zero3 _ x5) (ix3 (0 : Fin 1) o' g))
    (fun o' => congrFun (View.ld_unit_zero (S := S1x1x512) zero3 _ x6) (ix3 (0 : Fin 1) (0 : Fin 1) o'))) o

/-- The first chunk likewise (its stored term is the second chunk's, of its own rows). -/
theorem piece_lo (x0 : Vec Ideal S1x2048x512 .f32) (x1 : Vec Ideal S1x1024x512 .f32) (x2 : Vec Ideal S1x1x1024 .f32)
    (x3 : Vec Ideal S1x1024x1024 .f32) (x4 : Vec Ideal S1x1x1024 .f32) (x5 : Vec Ideal S1x512x1024 .f32)
    (x6 : Vec Ideal S1x1x512 .f32) (x : (⟨3, ![1, 1024, 512]⟩ : Shape).Idx) :
    k0_pay1 (k0_pay6 (View.ld x1 r0_0) (View.ld x3 r0_1) (View.ld x5 r0_2) (View.ld x0 r0_3) (View.ld x2 r0_4) (View.ld x4 r0_4))
        (k0_pay7 (View.ld x6 r0_5)) x
      = blockFn x0 x1 x2 x3 x4 x5 x6 (r0_3.emb x) := by
  obtain ⟨z, r, o, rfl⟩ : ∃ (z : Fin 1) (r : Fin 1024) (o : Fin 512), x = ix3 z r o := ⟨x 0, x 1, x 2, eq_ix3 x⟩
  rw [rows_lo, chunk0_eq]
  refine (chunk_apply _ _ _ _ _ _ _ z r o).trans ?_
  exact congrFun (mlpRow_congr
    (fun d => congrArg x0 (rows_lo (0 : Fin 1) r d))
    (fun h d => congrFun (View.ld_unit_zero (S := S1x1024x512) zero3 _ x1) (ix3 (0 : Fin 1) h d))
    (fun h => congrFun (View.ld_unit_zero (S := S1x1x1024) zero3 _ x2) (ix3 (0 : Fin 1) (0 : Fin 1) h))
    (fun g h => congrFun (View.ld_unit_zero (S := S1x1024x1024) zero3 _ x3) (ix3 (0 : Fin 1) g h))
    (fun g => congrFun (View.ld_unit_zero (S := S1x1x1024) zero3 _ x4) (ix3 (0 : Fin 1) (0 : Fin 1) g))
    (fun o' g => congrFun (View.ld_unit_zero (S := S1x512x1024) zero3 _ x5) (ix3 (0 : Fin 1) o' g))
    (fun o' => congrFun (View.ld_unit_zero (S := S1x1x512) zero3 _ x6) (ix3 (0 : Fin 1) (0 : Fin 1) o'))) o

/-- What the body leaves in the result's staging buffer is the block function of the input blocks:
    both stored chunks are pieces of it, and they cover the block. -/
theorem block_eq (x0 : Vec Ideal S1x2048x512 .f32) (x1 : Vec Ideal S1x1024x512 .f32) (x2 : Vec Ideal S1x1x1024 .f32)
    (x3 : Vec Ideal S1x1024x1024 .f32) (x4 : Vec Ideal S1x1x1024 .f32) (x5 : Vec Ideal S1x512x1024 .f32)
    (x6 : Vec Ideal S1x1x512 .f32) (y : S1x2048x512.Idx) :
    out0_7 x0 x1 x2 x3 x4 x5 x6 y = blockFn x0 x1 x2 x3 x4 x5 x6 y := by
  unfold out0_7
  refine View.canon_apply_of_pieces (Val := Elt Ideal) (S := S1x2048x512) (e := .f32) (blockFn x0 x1 x2 x3 x4 x5 x6) _
    (List.forall_mem_cons.mpr ⟨piece_hi x0 x1 x2 x3 x4 x5 x6, List.forall_mem_cons.mpr ⟨piece_lo x0 x1 x2 x3 x4 x5 x6,
      fun _ h => absurd h List.not_mem_nil⟩⟩) y (cover0_7 _ _ y)

/-! ## The input blocks, read through their places in the arrays -/

variable (m : (ℓ : Loc nD τ sig) → Buf (Elt Ideal) ℓ) (ρ : Dev nD → PrngReg)

/-- The printed index maps over the 16 grid points: the query window moves with the result window; the six
    weight and bias windows follow its batch coordinate and stay at block 0 on their other axes; the result
    window's column block is 0, its batch block is below 8 and its row block below 2. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 3) = win0_7.index t (0 : Fin 3) ∧ win0_3.index t (1 : Fin 3) = 0 ∧ win0_3.index t (2 : Fin 3) = 0
    ∧ win0_4.index t (0 : Fin 3) = win0_7.index t (0 : Fin 3) ∧ win0_4.index t (1 : Fin 3) = 0 ∧ win0_4.index t (2 : Fin 3) = 0
    ∧ win0_5.index t (0 : Fin 3) = win0_7.index t (0 : Fin 3) ∧ win0_5.index t (1 : Fin 3) = 0 ∧ win0_5.index t (2 : Fin 3) = 0
    ∧ win0_6.index t (0 : Fin 3) = win0_7.index t (0 : Fin 3) ∧ win0_6.index t (1 : Fin 3) = 0 ∧ win0_6.index t (2 : Fin 3) = 0
    ∧ win0_7.index t (2 : Fin 3) = 0 ∧ win0_7.index t (0 : Fin 3) < 8 ∧ win0_7.index t (1 : Fin 3) < 2 :=
  (by decide +kernel : ∀ t : Fin grid0.N, _)

/-- Every (batch entry, row block) is some grid point's. -/
theorem idx_onto : ∀ (q0 : Fin 8) (q1 : Fin 2), ∃ t : Fin cfg0.N, win0_7.index t = ![q0.val, q1.val, 0] :=
  (by decide +kernel : ∀ (q0 : Fin 8) (q1 : Fin 2), ∃ t : Fin grid0.N, win0_7.index t = ![q0.val, q1.val, 0])

/-- The first bias row as the region finds it: the host inserted a unit axis. -/
theorem V_bias0 (c : Dev nD) : (V m c main_v0 : S8x1x1024.Idx → EReal)
    = broadcastInDim S8x1x1024 ![0, 2] bcast_S8x1024_S8x1x1024_0_2 (m ((c : Thread nD τ).loc main_arg2)) := by
  dsimp only [Gen.V, Gen.hostOps0]; after_results <;> rfl
theorem V_bias1 (c : Dev nD) : (V m c main_v1 : S8x1x1024.Idx → EReal)
    = broadcastInDim S8x1x1024 ![0, 2] bcast_S8x1024_S8x1x1024_0_2 (m ((c : Thread nD τ).loc main_arg4)) := by
  dsimp only [Gen.V, Gen.hostOps0]; after_results <;> rfl
theorem V_bias2 (c : Dev nD) : (V m c main_v2 : S8x1x512.Idx → EReal)
    = broadcastInDim S8x1x512 ![0, 2] bcast_S8x512_S8x1x512_0_2 (m ((c : Thread nD τ).loc main_arg6)) := by
  dsimp only [Gen.V, Gen.hostOps0]; after_results <;> rfl

/-- The inserted unit axis read away: entry (b, 0, n) of the broadcast is entry (b, n) of the bias. -/
theorem bias1024_apply (B : S8x1024.Idx → EReal) (b : Fin 8) (n : Fin 1024) :
    broadcastInDim S8x1x1024 ![0, 2] bcast_S8x1024_S8x1x1024_0_2 B (ix3 b (0 : Fin 1) n) = B (ix2 b n) :=
  broadcastInDim_apply _ bcast_S8x1024_S8x1x1024_0_2 B (ix3 b (0 : Fin 1) n) (ix2 b n) (fun a => match a with
    | ⟨0, _⟩ => by show b.val = if (8 : Nat) = 1 then 0 else b.val; rw [if_neg (by decide)]
    | ⟨1, _⟩ => by show n.val = if (1024 : Nat) = 1 then 0 else n.val; rw [if_neg (by decide)])
theorem bias512_apply (B : S8x512.Idx → EReal) (b : Fin 8) (n : Fin 512) :
    broadcastInDim S8x1x512 ![0, 2] bcast_S8x512_S8x1x512_0_2 B (ix3 b (0 : Fin 1) n) = B (ix2 b n) :=
  broadcastInDim_apply _ bcast_S8x512_S8x1x512_0_2 B (ix3 b (0 : Fin 1) n) (ix2 b n) (fun a => match a with
    | ⟨0, _⟩ => by show b.val = if (8 : Nat) = 1 then 0 else b.val; rw [if_neg (by decide)]
    | ⟨1, _⟩ => by show n.val = if (512 : Nat) = 1 then 0 else n.val; rw [if_neg (by decide)])

/-- The query block at a point: row r of the block is row (row block) · 2048 + r of the point's batch entry. -/
theorem readQ (c : Dev nD) (t : Fin cfg0.N) (r : Fin 2048) (d : Fin 512) (b : Fin 8) (s : Fin 4096)
    (hb : b.val = win0_7.index t (0 : Fin 3)) (hs : s.val = win0_7.index t (1 : Fin 3) * 2048 + r.val) :
    (iblk m c 0 t : Vec Ideal S1x2048x512 .f32) (ix3 (0 : Fin 1) r d)
      = (m ((c : Thread nD τ).loc main_arg0) : S8x4096x512.Idx → EReal) (ix3 b s d) := by
  obtain ⟨e0, e1, e2, -⟩ := idx_facts t
  show V m c main_arg0 (((cfg0.win 0).blk t).view.emb (ix3 (0 : Fin 1) r d)) = _
  rw [V_main_arg0]
  congr 1
  funext a; apply Fin.ext
  match a with
  | ⟨0, _⟩ => show win0_0.index t (0 : Fin 3) * 1 + 1 * 0 = b.val; omega
  | ⟨1, _⟩ => show win0_0.index t (1 : Fin 3) * 2048 + 1 * r.val = s.val; omega
  | ⟨2, _⟩ => show win0_0.index t (2 : Fin 3) * 512 + 1 * d.val = d.val; omega

/-- The first weight block at a point is the point's batch entry of the first weight array. -/
theorem readW0 (c : Dev nD) (t : Fin cfg0.N) (h : Fin 1024) (d : Fin 512) (b : Fin 8)
    (hb : b.val = win0_7.index t (0 : Fin 3)) :
    (iblk m c 1 t : Vec Ideal S1x1024x512 .f32) (ix3 (0 : Fin 1) h d)
      = (m ((c : Thread nD τ).loc main_arg1) : S8x1024x512.Idx → EReal) (ix3 b h d) := by
  obtain ⟨-, -, -, e0, e1, e2, -⟩ := idx_facts t
  show V m c main_arg1 (((cfg0.win 1).blk t).view.emb (ix3 (0 : Fin 1) h d)) = _
  rw [V_main_arg1]
  congr 1
  funext a; apply Fin.ext
  match a with
  | ⟨0, _⟩ => show win0_1.index t (0 : Fin 3) * 1 + 1 * 0 = b.val; omega
  | ⟨1, _⟩ => show win0_1.index t (1 : Fin 3) * 1024 + 1 * h.val = h.val; omega
  | ⟨2, _⟩ => show win0_1.index t (2 : Fin 3) * 512 + 1 * d.val = d.val; omega

/-- The second weight block. -/
theorem readW1 (c : Dev nD) (t : Fin cfg0.N) (g : Fin 1024) (h : Fin 1024) (b : Fin 8)
    (hb : b.val = win0_7.index t (0 : Fin 3)) :
    (iblk m c 3 t : Vec Ideal S1x1024x1024 .f32) (ix3 (0 : Fin 1) g h)
      = (m ((c : Thread nD τ).loc main_arg3) : S8x1024x1024.Idx → EReal) (ix3 b g h) := by
  obtain ⟨-, -, -, -, -, -, -, -, -, e0, e1, e2, -⟩ := idx_facts t
  show V m c main_arg3 (((cfg0.win 3).blk t).view.emb (ix3 (0 : Fin 1) g h)) = _
  rw [V_main_arg3]
  congr 1
  funext a; apply Fin.ext
  match a with
  | ⟨0, _⟩ => show win0_3.index t (0 : Fin 3) * 1 + 1 * 0 = b.val; omega
  | ⟨1, _⟩ => show win0_3.index t (1 : Fin 3) * 1024 + 1 * g.val = g.val; omega
  | ⟨2, _⟩ => show win0_3.index t (2 : Fin 3) * 1024 + 1 * h.val = h.val; omega

/-- The third weight block. -/
theorem readW2 (c : Dev nD) (t : Fin cfg0.N) (o : Fin 512) (g : Fin 1024) (b : Fin 8)
    (hb : b.val = win0_7.index t (0 : Fin 3)) :
    (iblk m c 5 t : Vec Ideal S1x512x1024 .f32) (ix3 (0 : Fin 1) o g)
      = (m ((c : Thread nD τ).loc main_arg5) : S8x512x1024.Idx → EReal) (ix3 b o g) := by
  obtain ⟨-, -, -, -, -, -, -, -, -, -, -, -, -, -, -, e0, e1, e2, -⟩ := idx_facts t
  show V m c main_arg5 (((cfg0.win 5).blk t).view.emb (ix3 (0 : Fin 1) o g)) = _
  rw [V_main_arg5]
  congr 1
  funext a; apply Fin.ext
  match a with
  | ⟨0, _⟩ => show win0_5.index t (0 : Fin 3) * 1 + 1 * 0 = b.val; omega
  | ⟨1, _⟩ => show win0_5.index t (1 : Fin 3) * 512 + 1 * o.val = o.val; omega
  | ⟨2, _⟩ => show win0_5.index t (2 : Fin 3) * 1024 + 1 * g.val = g.val; omega

/-- The first bias block at a point is the point's batch entry of the first bias array. -/
theorem readB0 (c : Dev nD) (t : Fin cfg0.N) (h : Fin 1024) (b : Fin 8) (hb : b.val = win0_7.index t (0 : Fin 3)) :
    (iblk m c 2 t : Vec Ideal S1x1x1024 .f32) (ix3 (0 : Fin 1) (0 : Fin 1) h)
      = (m ((c : Thread nD τ).loc main_arg2) : S8x1024.Idx → EReal) (ix2 b h) := by
  obtain ⟨-, -, -, -, -, -, e0, e1, e2, -⟩ := idx_facts t
  show V m c main_v0 (((cfg0.win 2).blk t).view.emb (ix3 (0 : Fin 1) (0 : Fin 1) h)) = _
  have e : ((cfg0.win 2).blk t).view.emb (ix3 (0 : Fin 1) (0 : Fin 1) h) = (ix3 b (0 : Fin 1) h : S8x1x1024.Idx) := by
    funext a; apply Fin.ext
    match a with
    | ⟨0, _⟩ => show win0_2.index t (0 : Fin 3) * 1 + 1 * 0 = b.val; omega
    | ⟨1, _⟩ => show win0_2.index t (1 : Fin 3) * 1 + 1 * 0 = 0; omega
    | ⟨2, _⟩ => show win0_2.index t (2 : Fin 3) * 1024 + 1 * h.val = h.val; omega
  rw [e, V_bias0, bias1024_apply]

/-- The second bias block. -/
theorem readB1 (c : Dev nD) (t : Fin cfg0.N) (g : Fin 1024) (b : Fin 8) (hb : b.val = win0_7.index t (0 : Fin 3)) :
    (iblk m c 4 t : Vec Ideal S1x1x1024 .f32) (ix3 (0 : Fin 1) (0 : Fin 1) g)
      = (m ((c : Thread nD τ).loc main_arg4) : S8x1024.Idx → EReal) (ix2 b g) := by
  obtain ⟨-, -, -, -, -, -, -, -, -, -, -, -, e0, e1, e2, -⟩ := idx_facts t
  show V m c main_v1 (((cfg0.win 4).blk t).view.emb (ix3 (0 : Fin 1) (0 : Fin 1) g)) = _
  have e : ((cfg0.win 4).blk t).view.emb (ix3 (0 : Fin 1) (0 : Fin 1) g) = (ix3 b (0 : Fin 1) g : S8x1x1024.Idx) := by
    funext a; apply Fin.ext
    match a with
    | ⟨0, _⟩ => show win0_4.index t (0 : Fin 3) * 1 + 1 * 0 = b.val; omega
    | ⟨1, _⟩ => show win0_4.index t (1 : Fin 3) * 1 + 1 * 0 = 0; omega
    | ⟨2, _⟩ => show win0_4.index t (2 : Fin 3) * 1024 + 1 * g.val = g.val; omega
  rw [e, V_bias1, bias1024_apply]

/-- The third bias block. -/
theorem readB2 (c : Dev nD) (t : Fin cfg0.N) (o : Fin 512) (b : Fin 8) (hb : b.val = win0_7.index t (0 : Fin 3)) :
    (iblk m c 6 t : Vec Ideal S1x1x512 .f32) (ix3 (0 : Fin 1) (0 : Fin 1) o)
      = (m ((c : Thread nD τ).loc main_arg6) : S8x512.Idx → EReal) (ix2 b o) := by
  obtain ⟨-, -, -, -, -, -, -, -, -, -, -, -, -, -, -, -, -, -, e0, e1, e2, -⟩ := idx_facts t
  show V m c main_v2 (((cfg0.win 6).blk t).view.emb (ix3 (0 : Fin 1) (0 : Fin 1) o)) = _
  have e : ((cfg0.win 6).blk t).view.emb (ix3 (0 : Fin 1) (0 : Fin 1) o) = (ix3 b (0 : Fin 1) o : S8x1x512.Idx) := by
    funext a; apply Fin.ext
    match a with
    | ⟨0, _⟩ => show win0_6.index t (0 : Fin 3) * 1 + 1 * 0 = b.val; omega
    | ⟨1, _⟩ => show win0_6.index t (1 : Fin 3) * 1 + 1 * 0 = 0; omega
    | ⟨2, _⟩ => show win0_6.index t (2 : Fin 3) * 512 + 1 * o.val = o.val; omega
  rw [e, V_bias2, bias512_apply]

/-! ## The result array -/

/-- The perceptron of the seven argument arrays as launched. -/
def resultArr (c : Dev nD) : S8x4096x512.Idx → EReal :=
  mlpArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- At index j of point t's block the body's result is the whole-array perceptron at j's place in the array. -/
theorem flushed_at (c : Dev nD) (t : Fin cfg0.N) (j : S1x2048x512.Idx) :
    out0_7 (iblk m c 0 t) (iblk m c 1 t) (iblk m c 2 t) (iblk m c 3 t) (iblk m c 4 t) (iblk m c 5 t) (iblk m c 6 t) j
      = resultArr m c (((cfg0.win 7).blk t).view.emb j) := by
  obtain ⟨z, r, o, rfl⟩ : ∃ (z : Fin 1) (r : Fin 2048) (o : Fin 512), j = ix3 z r o := ⟨j 0, j 1, j 2, eq_ix3 j⟩
  have hf := idx_facts t
  have hb8 : win0_7.index t (0 : Fin 3) < 8 := hf.2.2.2.2.2.2.2.2.2.2.2.2.2.2.2.2.2.2.2.2.2.2.1
  have hs2 : win0_7.index t (1 : Fin 3) < 2 := hf.2.2.2.2.2.2.2.2.2.2.2.2.2.2.2.2.2.2.2.2.2.2.2
  have hc0 : win0_7.index t (2 : Fin 3) = 0 := hf.2.2.2.2.2.2.2.2.2.2.2.2.2.2.2.2.2.2.2.2.2.1
  have hr := r.isLt
  have hz := z.isLt
  obtain ⟨b, hb⟩ : ∃ b : Fin 8, b.val = win0_7.index t (0 : Fin 3) := ⟨⟨_, hb8⟩, rfl⟩
  obtain ⟨s, hs⟩ : ∃ s : Fin 4096, s.val = win0_7.index t (1 : Fin 3) * 2048 + r.val := ⟨⟨_, by omega⟩, rfl⟩
  have e : ((cfg0.win 7).blk t).view.emb (ix3 z r o) = (ix3 b s o : S8x4096x512.Idx) := by
    funext a; apply Fin.ext
    match a with
    | ⟨0, _⟩ => show win0_7.index t (0 : Fin 3) * 1 + 1 * z.val = b.val; omega
    | ⟨1, _⟩ => show win0_7.index t (1 : Fin 3) * 2048 + 1 * r.val = s.val; omega
    | ⟨2, _⟩ => show win0_7.index t (2 : Fin 3) * 512 + 1 * o.val = o.val; omega
  rw [e, block_eq]
  show rowOut (iblk m c 0 t) (iblk m c 1 t) (iblk m c 2 t) (iblk m c 3 t) (iblk m c 4 t) (iblk m c 5 t) (iblk m c 6 t) r o
    = mlpAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) b s o
  exact congrFun (mlpRow_congr
    (fun d => readQ m c t r d b s hb hs)
    (fun h d => readW0 m c t h d b hb)
    (fun h => readB0 m c t h b hb)
    (fun g h => readW1 m c t g h b hb)
    (fun g => readB1 m c t g b hb)
    (fun o' g => readW2 m c t o' g b hb)
    (fun o' => readB2 m c t o' b hb)) o

/-- What point t writes back is block t of the whole-array perceptron. -/
theorem flushed_eq (c : Dev nD) (t : Fin cfg0.N) :
    (dats m 0 c).flushed 7 t = ((cfg0.win 7).blk t).view.read (Elt Ideal) (resultArr m c) := by
  rw [Value.flushed7]
  funext j
  exact flushed_at m c t j

/-- An index of the result array is in point t's block iff each coordinate is in the block's range on its axis. -/
theorem mem_blk (t : Fin cfg0.N) (i : S8x4096x512.Idx) :
    i ∈ ((cfg0.win 7).blk t).view.set ↔ ∀ a : Fin 3, win0_7.index t a * S1x2048x512.size a ≤ (i a).val
      ∧ (i a).val < win0_7.index t a * S1x2048x512.size a + S1x2048x512.size a := by
  show i ∈ ((View.whole main_v3).slice (win0_7.rect t)).set ↔ _
  rw [View.set_slice_whole, Rect.mem_set_unit]
  exact Iff.rfl

/-- The 16 blocks cover the result array: entry (b, s, o) lies in the block of point (b, s / 2048). -/
theorem cover (i : S8x4096x512.Idx) :
    ∃ t : Fin cfg0.N, (cfg0.win 7).flush t = true ∧ i ∈ ((cfg0.win 7).blk t).view.set := by
  have h0 : (i 0).val < 8 := (i 0).isLt
  have h1 : (i 1).val < 4096 := (i 1).isLt
  have h2 : (i 2).val < 512 := (i 2).isLt
  obtain ⟨t, ht⟩ := idx_onto ⟨(i 0).val, h0⟩ ⟨(i 1).val / 2048, by omega⟩
  have q0 : win0_7.index t (0 : Fin 3) = (i 0).val := congrFun ht 0
  have q1 : win0_7.index t (1 : Fin 3) = (i 1).val / 2048 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 512 ≤ (i 2).val ∧ (i 2).val < win0_7.index t (2 : Fin 3) * 512 + 512; omega

/-- The result array after the run is the perceptron of the argument arrays. -/
theorem final (c : Dev nD) : (dats m 0 c).arrAt 7 cfg0.N = resultArr m c :=
  (dats m 0 c).arrAt_eq_of_cover 7 (resultArr m c) (fun t _ => flushed_eq m c t) cover

/-- The kernel's run: the result array at the perceptron of the arguments, the arguments unchanged. -/
theorem run : θ_run defs (onTc (τ := τ) (main (F := Ideal))) ⟨m, fun _ => 0, ρ⟩ fun r => ∀ c : Dev nD,
      r.2.mem ((c : Thread nD τ).loc main_v3) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.BlockValue

end
-- ==== Proof.RefIsMlp.lean ====
/-
  The reference computes the perceptron of MlpSpec: read one operation at a time, its three batched
  contractions are the three affine layers (each contracts the last axis of both operands, the batch axis
  carried along), each bias is broadcast along the row axis, and each rectifier is the maximum with a
  broadcast zero.
-/
import proofs.«129712_g64166811402842_feedfinal_112_24_alg».proof.Proof.Gen.ReferenceIdeal.Read
import proofs.«129712_g64166811402842_feedfinal_112_24_alg».proof.Proof.MlpSpec

noncomputable section

open scoped BigOperators

namespace Cert.ReferenceIdeal.RefValue

open Cert.ReferenceIdeal Cert.ReferenceIdeal.Read Cert.MlpSpec
open Idealize.ShloMosaic Idealize.ShloMosaic.ValueIdx

variable (x0 : (⟨S8x4096x512, .f32⟩ : BufTy).Contents (Elt Ideal)) (x1 : (⟨S8x1024x512, .f32⟩ : BufTy).Contents (Elt Ideal))
  (x2 : (⟨S8x1024, .f32⟩ : BufTy).Contents (Elt Ideal)) (x3 : (⟨S8x1024x1024, .f32⟩ : BufTy).Contents (Elt Ideal))
  (x4 : (⟨S8x1024, .f32⟩ : BufTy).Contents (Elt Ideal)) (x5 : (⟨S8x512x1024, .f32⟩ : BufTy).Contents (Elt Ideal))
  (x6 : (⟨S8x512, .f32⟩ : BufTy).Contents (Elt Ideal))

/-! ## Where each operation reads its operands -/

theorem lrow0 (b : Fin 8) (s : Fin 4096) (h : Fin 1024) (k : Fin 512) : lidx_main_v0 (ix3 b s h) k = ix3 b s k :=
  funext fun a => by match a with | ⟨0, _⟩ => rfl | ⟨1, _⟩ => rfl | ⟨2, _⟩ => rfl
theorem rrow0 (b : Fin 8) (s : Fin 4096) (h : Fin 1024) (k : Fin 512) : ridx_main_v0 (ix3 b s h) k = ix3 b h k :=
  funext fun a => by match a with | ⟨0, _⟩ => rfl | ⟨1, _⟩ => rfl | ⟨2, _⟩ => rfl
theorem bias0 (b : Fin 8) (s : Fin 4096) (h : Fin 1024) : idx_main_v1 (idx_main_v2 (ix3 b s h)) = ix2 b h :=
  funext fun a => by match a with | ⟨0, _⟩ => rfl | ⟨1, _⟩ => rfl
theorem lrow1 (b : Fin 8) (s : Fin 4096) (g : Fin 1024) (k : Fin 1024) : lidx_main_v5 (ix3 b s g) k = ix3 b s k :=
  funext fun a => by match a with | ⟨0, _⟩ => rfl | ⟨1, _⟩ => rfl | ⟨2, _⟩ => rfl
theorem rrow1 (b : Fin 8) (s : Fin 4096) (g : Fin 1024) (k : Fin 1024) : ridx_main_v5 (ix3 b s g) k = ix3 b g k :=
  funext fun a => by match a with | ⟨0, _⟩ => rfl | ⟨1, _⟩ => rfl | ⟨2, _⟩ => rfl
theorem bias1 (b : Fin 8) (s : Fin 4096) (g : Fin 1024) : idx_main_v6 (idx_main_v7 (ix3 b s g)) = ix2 b g :=
  funext fun a => by match a with | ⟨0, _⟩ => rfl | ⟨1, _⟩ => rfl
theorem lrow2 (b : Fin 8) (s : Fin 4096) (o : Fin 512) (k : Fin 1024) : lidx_main_v10 (ix3 b s o) k = ix3 b s k :=
  funext fun a => by match a with | ⟨0, _⟩ => rfl | ⟨1, _⟩ => rfl | ⟨2, _⟩ => rfl
theorem rrow2 (b : Fin 8) (s : Fin 4096) (o : Fin 512) (k : Fin 1024) : ridx_main_v10 (ix3 b s o) k = ix3 b o k :=
  funext fun a => by match a with | ⟨0, _⟩ => rfl | ⟨1, _⟩ => rfl | ⟨2, _⟩ => rfl
theorem bias2 (b : Fin 8) (s : Fin 4096) (o : Fin 512) : idx_main_v11 (idx_main_v12 (ix3 b s o)) = ix2 b o :=
  funext fun a => by match a with | ⟨0, _⟩ => rfl | ⟨1, _⟩ => rfl

/-! ## The three layers -/

/-- The first rectified layer: row (b, s) of the query against row h of batch entry b's first weight matrix. -/
theorem hidden1 (b : Fin 8) (s : Fin 4096) (h : Fin 1024) :
    val_main_v4 (F := Ideal) x0 x1 x2 (ix3 b s h)
      = relu (affine (fun d => x0 (ix3 b s d)) (fun h' d => x1 (ix3 b h' d)) (fun h' => x2 (ix2 b h')) h) := by
  rw [val_main_v4_apply, val_main_v3_apply, val_main_v0_apply, val_main_v2_apply, val_main_v1_apply,
    val_main_call0_v0_apply, val_main_call0_cst_apply]
  simp only [lrow0, rrow0, bias0, Ideal.addf_def, Ideal.maximumf_def, Ideal.ofBits_def, Ideal.ofBits_zero_f32]
  rfl

/-- The second rectified layer, over the first. -/
theorem hidden2 (b : Fin 8) (s : Fin 4096) (g : Fin 1024) :
    val_main_v9 (F := Ideal) x0 x1 x2 x3 x4 (ix3 b s g)
      = relu (affine (fun h => relu (affine (fun d => x0 (ix3 b s d)) (fun h' d => x1 (ix3 b h' d)) (fun h' => x2 (ix2 b h')) h))
          (fun g' h => x3 (ix3 b g' h)) (fun g' => x4 (ix2 b g')) g) := by
  rw [val_main_v9_apply, val_main_v8_apply, val_main_v5_apply, val_main_v7_apply, val_main_v6_apply,
    val_main_call1_v0_apply, val_main_call1_cst_apply]
  simp only [lrow1, rrow1, bias1, hidden1, Ideal.addf_def, Ideal.maximumf_def, Ideal.ofBits_def, Ideal.ofBits_zero_f32]
  rfl

/-- The output layer, over the second. -/
theorem output (b : Fin 8) (s : Fin 4096) (o : Fin 512) :
    val_main_v13 (F := Ideal) x0 x1 x2 x3 x4 x5 x6 (ix3 b s o) = mlpAt x0 x1 x2 x3 x4 x5 x6 b s o := by
  rw [val_main_v13_apply, val_main_v10_apply, val_main_v12_apply, val_main_v11_apply]
  simp only [lrow2, rrow2, bias2, hidden2, Ideal.addf_def]
  rfl

/-- The reference's result array is the perceptron of its seven arguments. -/
theorem result_eq : val_main_v13 (F := Ideal) x0 x1 x2 x3 x4 x5 x6 = mlpArr x0 x1 x2 x3 x4 x5 x6 := by
  funext i
  obtain ⟨b, s, o, rfl⟩ : ∃ (b : Fin 8) (s : Fin 4096) (o : Fin 512), i = ix3 b s o := ⟨i 0, i 1, i 2, eq_ix3 i⟩
  rw [output, mlpArr_ix3]

end Cert.ReferenceIdeal.RefValue

end
-- ==== Proof.lean ====
/-
  The certificate of a fused three-layer perceptron kernel against its jnp reference, over the extended reals.

  Both programs compute, for every batch entry b, row s and column o,

      out[b, s, o] = ∑_g e_g · W2[b, o, g] + b2[b, o],
      e_g = max (∑_h a_h · W1[b, g, h] + b1[b, g]) 0,      a_h = max (∑_d query[b, s, d] · W0[b, h, d] + b0[b, h]) 0.

  The kernel walks a grid of 8 × 2 points, each handling 2048 rows of one batch entry in two chunks of 1024
  rows on the matrix unit with bf16 operands; the reference is three batched contractions with broadcast
  biases and rectifiers.  At the extended reals a change of float format is the identity and a matrix product
  into a zero accumulator is the plain sum of products, and the two programs arrange their sums the same
  way, so the two results are the same function of the arguments (MlpSpec) index by index, with no use of
  finiteness: BlockValue reads the kernel's result array off its run, RefIsMlp the reference's.
  The idealization rewrote nothing, so its preservation claim is trivial.
-/
import proofs.«129712_g64166811402842_feedfinal_112_24_alg».proof.Defs
import proofs.«129712_g64166811402842_feedfinal_112_24_alg».proof.Proof.Gen.Kernel
import proofs.«129712_g64166811402842_feedfinal_112_24_alg».proof.Proof.Gen.Kernel.Skeleton
import proofs.«129712_g64166811402842_feedfinal_112_24_alg».proof.Proof.Gen.Kernel.Launch
import proofs.«129712_g64166811402842_feedfinal_112_24_alg».proof.Proof.Gen.Kernel.Points
import proofs.«129712_g64166811402842_feedfinal_112_24_alg».proof.Proof.Gen.Kernel.Frame
import proofs.«129712_g64166811402842_feedfinal_112_24_alg».proof.Proof.Gen.KernelIdeal
import proofs.«129712_g64166811402842_feedfinal_112_24_alg».proof.Proof.Gen.KernelIdeal.Skeleton
import proofs.«129712_g64166811402842_feedfinal_112_24_alg».proof.Proof.Gen.KernelIdeal.Launch
import proofs.«129712_g64166811402842_feedfinal_112_24_alg».proof.Proof.Gen.KernelIdeal.Points
import proofs.«129712_g64166811402842_feedfinal_112_24_alg».proof.Proof.Gen.KernelIdeal.Frame
import proofs.«129712_g64166811402842_feedfinal_112_24_alg».proof.Proof.Gen.ReferenceIdeal
import proofs.«129712_g64166811402842_feedfinal_112_24_alg».proof.Proof.Gen.Pre_finite_inputs
import proofs.«129712_g64166811402842_feedfinal_112_24_alg».proof.Proof.Gen.KernelIdeal.Value
import proofs.«129712_g64166811402842_feedfinal_112_24_alg».proof.Proof.Gen.ReferenceIdeal.Run
import proofs.«129712_g64166811402842_feedfinal_112_24_alg».proof.Proof.Gen.ReferenceIdeal.Read
import proofs.«129712_g64166811402842_feedfinal_112_24_alg».proof.Proof.BlockValue
import proofs.«129712_g64166811402842_feedfinal_112_24_alg».proof.Proof.RefIsMlp
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the seven arguments, the idealized kernel and the idealized reference both
    end with the perceptron of those arguments in their result arrays. -/
theorem algebraic : Cert.algebraic_KernelIdeal_ReferenceIdeal := by
  intro m ρ m' ρ' _ hagree
  refine ⟨fun c => Cert.KernelIdeal.BlockValue.resultArr m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v13_eq, Cert.ReferenceIdeal.RefValue.result_eq, a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
